-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x4096 : Shape := ⟨3, ![8, 2048, 4096]⟩
abbrev S4096x4096 : Shape := ⟨2, ![4096, 4096]⟩
abbrev S4096 : Shape := ⟨1, ![4096]⟩
abbrev S_ : Shape := ⟨0, ![]⟩

class Facts : Prop where
  bcast_S_S8x2048x4096 : S_.BroadcastsInDim S8x2048x4096 (![] : Fin 0 → Fin S8x2048x4096.rank)
  reducesTo_S8x2048x4096_S_d0_1_2 : S8x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8x2048x4096 .f32) (main_arg1 : FVec F S4096x4096 .f32) (main_arg2 : FVec F S4096 .f32) : IVec S_ 1 :=
  let main_v0 : FVec F S8x2048x4096 .f32 := Host.absf main_arg0
  let main_cst : FVec F S_ .f32 := constant S_ .f32 0x7F800000#32
  let main_v1 : FVec F S8x2048x4096 .f32 := broadcastInDim S8x2048x4096 ![] bcast_S_S8x2048x4096 main_cst
  let main_v2 : IVec S8x2048x4096 1 := cmpf .olt main_v0 main_v1
  let main_c : IVec S_ 1 := constantI S_ 1 1#1
  let main_v3 : IVec S_ 1 := (fun x v => Host.reduce IntOp.andi x v reducesTo_S8x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8x2048x4096 : Shape := ⟨3, ![8, 2048, 4096]⟩
abbrev S4096x4096 : Shape := ⟨2, ![4096, 4096]⟩
abbrev S4096 : Shape := ⟨1, ![4096]⟩
abbrev S16384x4096 : Shape := ⟨2, ![16384, 4096]⟩
abbrev S_ : Shape := ⟨0, ![]⟩
abbrev S4096x1 : Shape := ⟨2, ![4096, 1]⟩
abbrev S1x4096 : Shape := ⟨2, ![1, 4096]⟩
abbrev S2048x512 : Shape := ⟨2, ![2048, 512]⟩
abbrev S512x1024 : Shape := ⟨2, ![512, 1024]⟩
abbrev S1x1024 : Shape := ⟨2, ![1, 1024]⟩
abbrev S2048x1024 : Shape := ⟨2, ![2048, 1024]⟩

abbrev nBuf : Space → Nat
  | .hbm => 19
  | .vmem => 9
  | .smem => 0
  | _ => 0

abbrev bufTy : (tb : Table) → Fin (tcTables nBuf tb) → BufTy
  | .hbm, ⟨0, _⟩ => ⟨S8x2048x4096, .f32⟩
  | .hbm, ⟨1, _⟩ => ⟨S4096x4096, .f32⟩
  | .hbm, ⟨2, _⟩ => ⟨S4096, .f32⟩
  | .hbm, ⟨3, _⟩ => ⟨S16384x4096, .f32⟩
  | .hbm, ⟨4, _⟩ => ⟨S4096x4096, .f32⟩
  | .hbm, ⟨5, _⟩ => ⟨S4096x4096, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S4096x4096, .bf16⟩
  | .hbm, ⟨16, _⟩ => ⟨S1x4096, .f32⟩
  | .hbm, ⟨17, _⟩ => ⟨S16384x4096, .f32⟩
  | .hbm, ⟨18, _⟩ => ⟨S8x2048x4096, .f32⟩
  | .local _ .vmem, ⟨0, _⟩ => ⟨S2048x512, .f32⟩
  | .local _ .vmem, ⟨1, _⟩ => ⟨S2048x512, .f32⟩
  | .local _ .vmem, ⟨2, _⟩ => ⟨S512x1024, .bf16⟩
  | .local _ .vmem, ⟨3, _⟩ => ⟨S512x1024, .bf16⟩
  | .local _ .vmem, ⟨4, _⟩ => ⟨S1x1024, .f32⟩
  | .local _ .vmem, ⟨5, _⟩ => ⟨S1x1024, .f32⟩
  | .local _ .vmem, ⟨6, _⟩ => ⟨S2048x1024, .f32⟩
  | .local _ .vmem, ⟨7, _⟩ => ⟨S2048x1024, .f32⟩
  | .local _ .vmem, ⟨8, _⟩ => ⟨S2048x1024, .f32⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 8], ![false, false, false]⟩

def k0_cond2 (i : grid0.Coords) : BitVec 1 :=
  let arg2 : BitVec 32 := BitVec.ofNat 32 (i 2).val
  let c7_i32 : BitVec 32 := 7#32
  let v14 : BitVec 1 := Scalar.cmpi .eq arg2 c7_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S8x2048x4096_S16384x4096 : S8x2048x4096.ShapeCasts S16384x4096
  reducesTo_S4096x4096_S4096_d1 : S4096x4096.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x4096_0_1 : S4096x1.BroadcastsInDim S4096x4096 (![0, 1] : Fin 2 → Fin S4096x4096.rank)
  transposes_S4096x4096_S4096x4096_1_0 : S4096x4096.Transposes [1, 0] S4096x4096
  bitsLt_bf16_f32 : FTy.bits .bf16 < FTy.bits .f32
  shapeCasts_S4096_S1x4096 : S4096.ShapeCasts S1x4096
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  shapeCasts_S16384x4096_S8x2048x4096 : S16384x4096.ShapeCasts S8x2048x4096
  dot_S2048x512_S512x1024_S2048x1024_1_0_0_1_n_n_wf : DotDims.WF S2048x512 S512x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S16384x4096.size a
  hwx0_0 : ∀ i : grid0.Coords, EltTy.bits .f32 = 32 ∨ (Rect.block (s := S16384x4096) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x4096.size a
  hwx0_1 : ∀ i : grid0.Coords, EltTy.bits .bf16 = 32 ∨ (Rect.block (s := S4096x4096) S512x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S16384x4096.size a
  hwx0_3 : ∀ i : grid0.Coords, EltTy.bits .f32 = 32 ∨ (Rect.block (s := S16384x4096) S2048x1024.size (cc0_transform_3 i) (hinb0_3 i)).WholeWords (EltTy.packing .f32)

variable [Facts₀]

def dot_S2048x512_S512x1024_S2048x1024_1_0_0_1_n_n : DotDims S2048x512 S512x1024 S2048x1024 where
  lhsContracting := [1]
  rhsContracting := [0]
  lhsNonContracting := [0]
  rhsNonContracting := [1]
  lhsBatch := []
  rhsBatch := []
  wf := dot_S2048x512_S512x1024_S2048x1024_1_0_0_1_n_n_wf

abbrev win0_0 : Pipeline.Window sig grid0 :=
  Pipeline.Window.ofSpec (Memref.whole main_v0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S2048x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8x2048x4096 : Shape := ⟨3, ![8, 2048, 4096]⟩
abbrev S4096x4096 : Shape := ⟨2, ![4096, 4096]⟩
abbrev S4096 : Shape := ⟨1, ![4096]⟩
abbrev S_ : Shape := ⟨0, ![]⟩
abbrev S4096x1 : Shape := ⟨2, ![4096, 1]⟩
abbrev S1x1x4096 : Shape := ⟨3, ![1, 1, 4096]⟩

abbrev nBuf : Space → Nat
  | .hbm => 17
  | .vmem => 0
  | .smem => 0
  | _ => 0

abbrev bufTy : (tb : Table) → Fin (tcTables nBuf tb) → BufTy
  | .hbm, ⟨0, _⟩ => ⟨S8x2048x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S4096x4096, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S4096x4096, .f32⟩
  | .hbm, ⟨12, _⟩ => ⟨S4096x4096, .f32⟩
  | .hbm, ⟨13, _⟩ => ⟨S8x2048x4096, .f32⟩
  | .hbm, ⟨14, _⟩ => ⟨S1x1x4096, .f32⟩
  | .hbm, ⟨15, _⟩ => ⟨S8x2048x4096, .f32⟩
  | .hbm, ⟨16, _⟩ => ⟨S8x2048x4096, .f32⟩
  | _, _ => ⟨S8x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]

class Facts₀ : Prop where
  reducesTo_S4096x4096_S4096_d1 : S4096x4096.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x4096_0_1 : S4096x1.BroadcastsInDim S4096x4096 (![0, 1] : Fin 2 → Fin S4096x4096.rank)
  bcast_S4096_S1x1x4096_2 : S4096.BroadcastsInDim S1x1x4096 (![2] : Fin 1 → Fin S1x1x4096.rank)
  bcast_S1x1x4096_S8x2048x4096_0_1_2 : S1x1x4096.BroadcastsInDim S8x2048x4096 (![0, 1, 2] : Fin 3 → Fin S8x2048x4096.rank)
  dot_S8x2048x4096_S4096x4096_S8x2048x4096_2_1_01_0_n_n_wf : DotDims.WF S8x2048x4096 S4096x4096 S8x2048x4096 [2] [1] [0, 1] [0] [] []

variable [Facts₀]

def dot_S8x2048x4096_S4096x4096_S8x2048x4096_2_1_01_0_n_n : DotDims S8x2048x4096 S4096x4096 S8x2048x4096 where
  lhsContracting := [2]
  rhsContracting := [1]
  lhsNonContracting := [0, 1]
  rhsNonContracting := [0]
  lhsBatch := []
  rhsBatch := []
  wf := dot_S8x2048x4096_S4096x4096_S8x2048x4096_2_1_01_0_n_n_wf

class Facts : Prop extends Facts₀ where

variable [Facts]
-- ==== Proof.Pieces.lean ====
/-
  What each control case of the kernel body leaves behind, as values of what it loaded.

  The body has three cases, by the position k of the point along the contracted grid axis:
  * first (k = 0): the accumulator is reset to zero and then updated, so it ends at the update of the zero block;
  * middle (0 < k < 7): the accumulator ends at the update of what the point before left;
  * last (k = 7): the same update, and the output block is the updated accumulator plus the bias row.
  Each is the covering store's value read back whole; a load that follows a store in the same case reads the stored
  value.  Generic in the float instance.
-/
import proofs.«109855_j35691178230429_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Acc

open Cert.KernelIdeal Cert.KernelIdeal.Gen

variable {F : FTy → Type} [FloatOps F]

theorem hz : (![0, 0] : Fin 2 → Nat) = fun _ => 0 := funext fun a => by fin_cases a <;> rfl

/-- Middle case: the accumulator ends at the update of what it held. -/
theorem scratch_B (c : Dev nD) (i : grid0.Coords) (arg3 : Memref sig .tc .vmem S2048x512 .f32) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond0_0 i) (hc1 : ¬cond0_1 i)
    (x0 : Vec F S2048x512 .f32) (x1 : Vec F S512x1024 .bf16) (x2 : Vec F S1x1024 .f32) (xs0 : Vec F S2048x1024 .f32) :
    sout0_B_0 c i arg3 harg3 arg4 harg4 arg5 harg5 arg6 harg6 arg7 harg7 hc0 hc1 x0 x1 x2 xs0 = k0_pay2 x0 xs0 x1 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  sl_unfold_words
  rw [View.canon_unit_zero hz]
  simp only [View.readAt_eq_ld, harg3.read_unread, harg4.read_unread, harg5.read_unread, harg7.read_unread, View.ld_unit_zero (S := S2048x512) hz, View.ld_unit_zero (S := S512x1024) hz, View.ld_unit_zero (S := S2048x1024) hz, View.ld_unit_zero (S := S1x1024) hz]

/-- First case: the accumulator is reset, then updated: it ends at the update of the reset's value. -/
theorem scratch_A (c : Dev nD) (i : grid0.Coords) (arg3 : Memref sig .tc .vmem S2048x512 .f32) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : cond0_0 i) (hc1 : ¬cond0_1 i)
    (x0 : Vec F S2048x512 .f32) (x1 : Vec F S512x1024 .bf16) (x2 : Vec F S1x1024 .f32) :
    sout0_A_0 c i arg3 harg3 arg4 harg4 arg5 harg5 arg6 harg6 arg7 harg7 hc0 hc1 x0 x1 x2 = k0_pay2 x0 (k0_pay1 (F := F)) x1 := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S2048x1024) hz, View.readCov_unit_zero (S := S2048x1024) _ hz]
  simp only [View.readAt_eq_ld, harg3.read_unread, harg4.read_unread, harg5.read_unread, harg7.read_unread, View.ld_unit_zero (S := S2048x512) hz, View.ld_unit_zero (S := S512x1024) hz, View.ld_unit_zero (S := S2048x1024) hz, View.ld_unit_zero (S := S1x1024) hz]

/-- Last case: the accumulator ends at the update of what it held, -/
theorem scratch_C (c : Dev nD) (i : grid0.Coords) (arg3 : Memref sig .tc .vmem S2048x512 .f32) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond0_0 i) (hc1 : cond0_1 i)
    (x0 : Vec F S2048x512 .f32) (x1 : Vec F S512x1024 .bf16) (x2 : Vec F S1x1024 .f32) (xs0 : Vec F S2048x1024 .f32) :
    sout0_C_0 c i arg3 harg3 arg4 harg4 arg5 harg5 arg6 harg6 arg7 harg7 hc0 hc1 x0 x1 x2 xs0 = k0_pay2 x0 xs0 x1 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero hz]
  simp only [View.readAt_eq_ld, harg3.read_unread, harg4.read_unread, harg5.read_unread, harg7.read_unread, View.ld_unit_zero (S := S2048x512) hz, View.ld_unit_zero (S := S512x1024) hz, View.ld_unit_zero (S := S2048x1024) hz, View.ld_unit_zero (S := S1x1024) hz]

/-- and the output block is that updated accumulator plus the bias row. -/
theorem out_C (c : Dev nD) (i : grid0.Coords) (arg3 : Memref sig .tc .vmem S2048x512 .f32) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond0_0 i) (hc1 : cond0_1 i)
    (x0 : Vec F S2048x512 .f32) (x1 : Vec F S512x1024 .bf16) (x2 : Vec F S1x1024 .f32) (xs0 : Vec F S2048x1024 .f32) :
    out0_C_3 c i arg3 harg3 arg4 harg4 arg5 harg5 arg6 harg6 arg7 harg7 hc0 hc1 x0 x1 x2 xs0 = k0_pay3 (k0_pay2 x0 xs0 x1) x2 := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero hz]
  simp only [View.readAt_eq_ld, harg3.read_unread, harg4.read_unread, harg5.read_unread, harg7.read_unread, View.ld_unit_zero (S := S2048x512) hz, View.ld_unit_zero (S := S512x1024) hz, View.ld_unit_zero (S := S2048x1024) hz, View.ld_unit_zero (S := S1x1024) hz, View.readCov_unit_zero (S := S2048x1024) _ hz]

end Cert.KernelIdeal.Acc

end
-- ==== Proof.LibPlainMatmul.lean ====
/-
  The product of an M × K matrix by a K × N matrix read at one element, for the vector unit's product accumulated into
  a zero matrix: row e, column j is the sum over k of the left matrix at (e, k) times the right matrix at (k, j). At
  the ideal values.
-/
import Idealize.ShloMosaic.PureOps.Ideal.Laws
import Idealize.ShloMosaic.Lib.ValueIdx
import Idealize.ShloMosaic.Lib.KernelVsHost
import Idealize.ShloMosaic.Lib.StackMember

noncomputable section

open Idealize.ShloMosaic Idealize.ShloMosaic.ValueIdx

namespace Cert.LibPlainMatmul

/-- The product accumulated into a zero matrix, at row e and column j. -/
theorem matmul_plain_apply {M K N : ℕ} {φ₁ φ₂ : FTy} (prec : Option ContractPrecision)
    (l : FVec Ideal ⟨2, ![M, K]⟩ φ₁) (r : FVec Ideal ⟨2, ![K, N]⟩ φ₂) (e : Fin M) (j : Fin N) :
    matmul (DotDims.plain M K N) prec l r (constant (⟨2, ![M, N]⟩ : Shape) .f32 0x00000000#32) (ix2 e j)
      = ∑ k : Fin K, l (ix2 e k) * r (ix2 k j) := by
  rw [matmul_zero_eq_dotGeneral]
  exact StackMember.dotGeneral_plain_apply prec l r e j

/-- The host's product, at row e and column j. -/
theorem dotGeneral_plain_apply {M K N : ℕ} {φ₁ φ₂ : FTy} (prec : Option ContractPrecision)
    (l : FVec Ideal ⟨2, ![M, K]⟩ φ₁) (r : FVec Ideal ⟨2, ![K, N]⟩ φ₂) (e : Fin M) (j : Fin N) :
    Host.dotGeneral (DotDims.plain M K N) prec l r (ix2 e j) = ∑ k : Fin K, l (ix2 e k) * r (ix2 k j) :=
  StackMember.dotGeneral_plain_apply prec l r e j

end Cert.LibPlainMatmul

end
-- ==== Proof.Payload.lean ====
/-
  The kernel body's three stored values, read at one entry over the extended reals.

  * the reset stores zero;
  * the accumulation stores, at row p and column q, the accumulator's entry plus the product of the point's
    2048 × 512 block of the left matrix with its 512 × 1024 block of the right one, a sum over the 512 contracted
    positions (the change of float format before the product is the identity on extended reals, and the product
    starts from zero);
  * the write-out stores the accumulator's entry plus the bias row's entry in the same column.
-/
import proofs.«109855_j35691178230429_1_alg».proof.Proof.Gen.KernelIdeal.Skeleton
import proofs.«109855_j35691178230429_1_alg».proof.Proof.LibPlainMatmul
import Idealize.ShloMosaic.Lib.ValueIdx
import Idealize.ShloMosaic.Lib.ValueLayout
import Idealize.ShloMosaic.Lib.Pipeline.Value
import Idealize.ShloMosaic.PureOps.Ideal.Laws

noncomputable section

open scoped BigOperators
open Idealize.ShloMosaic Idealize.ShloMosaic.ValueIdx

namespace Cert.KernelIdeal.Acc

open Cert.KernelIdeal Cert.KernelIdeal.Gen

/-- The record of the body's product is the plain 2048 × 512 by 512 × 1024 one. -/
theorem dot_eq_plain : dot_S2048x512_S512x1024_S2048x1024_1_0_0_1_n_n = DotDims.plain 2048 512 1024 := rfl

/-- The reset's value is zero everywhere. -/
theorem pay1_apply (j : S2048x1024.Idx) : k0_pay1 (F := Ideal) j = 0 := by
  unfold k0_pay1
  simp only [shapeCast_self]
  exact Ideal.ofBits_zero_f32

/-- The accumulation's value at row p, column q. -/
theorem pay2_apply (x : Vec Ideal S2048x512 .f32) (a : Vec Ideal S2048x1024 .f32) (w : Vec Ideal S512x1024 .bf16)
    (p : Fin 2048) (q : Fin 1024) :
    k0_pay2 x a w (ix2 p q) = a (ix2 p q) + ∑ k : Fin 512, x (ix2 p k) * w (ix2 k q) := by
  unfold k0_pay2
  simp only [shapeCast_self]
  refine congrArg (a (ix2 p q) + ·) ?_
  exact Cert.LibPlainMatmul.matmul_plain_apply none (truncf .bf16 x bitsLt_bf16_f32) w p q

/-- The write-out's value at row p, column q. -/
theorem pay3_apply (a : Vec Ideal S2048x1024 .f32) (b : Vec Ideal S1x1024 .f32) (p : Fin 2048) (q : Fin 1024) :
    k0_pay3 a b (ix2 p q) = a (ix2 p q) + b (ix2 (0 : Fin 1) q) := by
  unfold k0_pay3
  simp only [shapeCast_self]
  refine congrArg (a (ix2 p q) + ·) ?_
  exact broadcastTo_apply b broadcasts_S1x1024_S2048x1024 (ix2 p q) (ix2 (0 : Fin 1) q) fun ax =>
    match ax with
    | ⟨0, _⟩ => by show (0 : Nat) = if (1 : Nat) = 1 then 0 else _; rw [if_pos rfl]
    | ⟨1, _⟩ => by show q.val = if (1024 : Nat) = 1 then 0 else q.val; rw [if_neg (by decide)]

end Cert.KernelIdeal.Acc

end
-- ==== Proof.Blocks.lean ====
/-
  Where the windows' blocks sit.

  The grid is 8 × 4 × 8, walked row-major: point t has row-block t / 32, column-block (t / 8) % 4 and contraction
  block t % 8.  At point t
  * the left matrix's 2048 × 512 block is rows (t / 32) * 2048 + p, columns (t % 8) * 512 + k of the 16384 × 4096 array;
  * the right matrix's 512 × 1024 block is rows (t % 8) * 512 + k, columns ((t / 8) % 4) * 1024 + q of the 4096 × 4096 array;
  * the bias row's 1 × 1024 block is columns ((t / 8) % 4) * 1024 + q of the 1 × 4096 array;
  * the output's 2048 × 1024 block is rows (t / 32) * 2048 + p, columns ((t / 8) % 4) * 1024 + q.
  Generic in the float instance.
-/
import proofs.«109855_j35691178230429_1_alg».proof.Proof.Gen.KernelIdeal.Frame
import Idealize.ShloMosaic.Lib.ValueIdx
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen

variable {F : FTy → Type} [FloatOps F]
variable (m : (ℓ : Loc nD τ sig) → Buf (Elt F) ℓ)

/-- The three arrays the region reads, as it finds them, at their literal types. -/
abbrev xarr (c : Dev nD) : Vec F S16384x4096 .f32 := V m c main_v0
abbrev warr (c : Dev nD) : Vec F S4096x4096 .bf16 := V m c main_v10
abbrev barr (c : Dev nD) : Vec F S1x4096 .f32 := V m c main_v11

/-- Their blocks at a point. -/
abbrev xblk (c : Dev nD) (t : Fin cfg0.N) : Vec F S2048x512 .f32 := iblk m c 0 t
abbrev wblk (c : Dev nD) (t : Fin cfg0.N) : Vec F S512x1024 .bf16 := iblk m c 1 t
abbrev bblk (c : Dev nD) (t : Fin cfg0.N) : Vec F S1x1024 .f32 := iblk m c 2 t

/-- The printed index maps in closed form, decided over the 256 points. -/
theorem idx_facts : ∀ t : Fin cfg0.N,
    win0_0.index t (0 : Fin 2) = t.val / 32 ∧ win0_0.index t (1 : Fin 2) = t.val % 8
    ∧ win0_1.index t (0 : Fin 2) = t.val % 8 ∧ win0_1.index t (1 : Fin 2) = t.val / 8 % 4
    ∧ win0_2.index t (0 : Fin 2) = 0 ∧ win0_2.index t (1 : Fin 2) = t.val / 8 % 4
    ∧ win0_3.index t (0 : Fin 2) = t.val / 32 ∧ win0_3.index t (1 : Fin 2) = t.val / 8 % 4 :=
  (by decide +kernel : ∀ t : Fin grid0.N, _)

theorem point_lt (t : Fin cfg0.N) : t.val < 256 := lt_of_lt_of_eq t.isLt (show cfg0.N = 256 from N_0)

/-- The left block's entry (p, k) is the array's entry (r, i). -/
theorem xblk_apply (c : Dev nD) (t : Fin cfg0.N) (p : Fin 2048) (k : Fin 512) (r : Fin 16384) (i : Fin 4096)
    (hr : r.val = t.val / 32 * 2048 + p.val) (hi : i.val = t.val % 8 * 512 + k.val) :
    xblk m c t (ix2 p k) = xarr m c (ix2 r i) := by
  obtain ⟨e0, e1, -⟩ := idx_facts t
  show V m c main_v0 (((cfg0.win 0).blk t).view.emb (ix2 p k)) = V m c main_v0 (ix2 r i)
  refine congrArg (V m c main_v0) (funext fun a => Fin.ext ?_)
  match a with
  | ⟨0, _⟩ => show win0_0.index t (0 : Fin 2) * 2048 + 1 * p.val = r.val; omega
  | ⟨1, _⟩ => show win0_0.index t (1 : Fin 2) * 512 + 1 * k.val = i.val; omega

/-- The right block's entry (k, q) is the array's entry (i, o). -/
theorem wblk_apply (c : Dev nD) (t : Fin cfg0.N) (k : Fin 512) (q : Fin 1024) (i : Fin 4096) (o : Fin 4096)
    (hi : i.val = t.val % 8 * 512 + k.val) (ho : o.val = t.val / 8 % 4 * 1024 + q.val) :
    wblk m c t (ix2 k q) = warr m c (ix2 i o) := by
  obtain ⟨-, -, e0, e1, -⟩ := idx_facts t
  show V m c main_v10 (((cfg0.win 1).blk t).view.emb (ix2 k q)) = V m c main_v10 (ix2 i o)
  refine congrArg (V m c main_v10) (funext fun a => Fin.ext ?_)
  match a with
  | ⟨0, _⟩ => show win0_1.index t (0 : Fin 2) * 512 + 1 * k.val = i.val; omega
  | ⟨1, _⟩ => show win0_1.index t (1 : Fin 2) * 1024 + 1 * q.val = o.val; omega

/-- The bias block's entry (0, q) is the array's entry (0, o). -/
theorem bblk_apply (c : Dev nD) (t : Fin cfg0.N) (q : Fin 1024) (o : Fin 4096)
    (ho : o.val = t.val / 8 % 4 * 1024 + q.val) :
    bblk m c t (ix2 (0 : Fin 1) q) = barr m c (ix2 (0 : Fin 1) o) := by
  obtain ⟨-, -, -, -, e0, e1, -⟩ := idx_facts t
  show V m c main_v11 (((cfg0.win 2).blk t).view.emb (ix2 (0 : Fin 1) q)) = V m c main_v11 (ix2 (0 : Fin 1) o)
  refine congrArg (V m c main_v11) (funext fun a => Fin.ext ?_)
  match a with
  | ⟨0, _⟩ => show win0_2.index t (0 : Fin 2) * 1 + 1 * 0 = 0; omega
  | ⟨1, _⟩ => show win0_2.index t (1 : Fin 2) * 1024 + 1 * q.val = o.val; omega

/-- The output block's entry (p, q) sits at the array's entry (r, o). -/
theorem oblk_emb (t : Fin cfg0.N) (p : Fin 2048) (q : Fin 1024) (r : Fin 16384) (o : Fin 4096)
    (hr : r.val = t.val / 32 * 2048 + p.val) (ho : o.val = t.val / 8 % 4 * 1024 + q.val) :
    ((cfg0.win 3).blk t).view.emb (ix2 p q) = (ix2 r o : S16384x4096.Idx) := by
  obtain ⟨-, -, -, -, -, -, e0, e1⟩ := idx_facts t
  refine funext fun a => Fin.ext ?_
  match a with
  | ⟨0, _⟩ => show win0_3.index t (0 : Fin 2) * 2048 + 1 * p.val = r.val; omega
  | ⟨1, _⟩ => show win0_3.index t (1 : Fin 2) * 1024 + 1 * q.val = o.val; omega

end Cert.KernelIdeal.Acc

end
-- ==== Proof.LibBlockSums.lean ====
/-
  Sums over the first rows of consecutive blocks of equal height: the first (s + 1) * B rows are the first s * B rows
  followed by the B rows of block s; no blocks give the empty sum; and a sum over an initial segment of the naturals
  depends only on the segment's length.
-/
import Mathlib.Algebra.BigOperators.Fin

namespace Cert.LibBlockSums

variable {M : Type*} [AddCommMonoid M]

/-- A sum over the naturals below n depends only on the number n, not on how it is written. -/
theorem sum_cast {n n' : Nat} (h : n = n') (f : Nat → M) : ∑ r : Fin n, f r.val = ∑ r : Fin n', f r.val := by
  subst h
  rfl

/-- The naturals below a + b are those below a followed by a + r for r below b. -/
theorem sum_add (a b : Nat) (f : Nat → M) :
    ∑ r : Fin (a + b), f r.val = ∑ r : Fin a, f r.val + ∑ r : Fin b, f (a + r.val) := by
  rw [Fin.sum_univ_add]
  rfl

/-- The first s + 1 blocks of B rows are the first s blocks followed by the rows s * B + r, r below B, of block s. -/
theorem sum_blocks_succ (B s : Nat) (f : Nat → M) :
    ∑ r : Fin ((s + 1) * B), f r.val = ∑ r : Fin (s * B), f r.val + ∑ r : Fin B, f (s * B + r.val) := by
  rw [sum_cast (Nat.succ_mul s B) f, sum_add]

/-- No blocks: the empty sum. -/
theorem sum_blocks_zero (B : Nat) (f : Nat → M) : ∑ r : Fin (0 * B), f r.val = 0 := by
  rw [sum_cast (Nat.zero_mul B) f]
  rfl

/-- Twenty-five blocks of 512 rows are the 12800 rows. -/
theorem sum_blocks_25_512 (f : Nat → M) : ∑ r : Fin (25 * 512), f r.val = ∑ r : Fin 12800, f r.val :=
  sum_cast (show 25 * 512 = 12800 from rfl) f

/-- Twenty-five blocks of 2048 rows are the 51200 rows. -/
theorem sum_blocks_25_2048 (f : Nat → M) : ∑ r : Fin (25 * 2048), f r.val = ∑ r : Fin 51200, f r.val :=
  sum_cast (show 25 * 2048 = 51200 from rfl) f

end Cert.LibBlockSums
-- ==== Proof.LibDotBlocks.lean ====
/-
  A dot product of length N taken K-block by K-block.

  The contracted axis of length N = S * B is walked in S consecutive blocks of B positions.  The sum of the first
  s blocks, as a function of s, starts at zero, grows by block s's own sum, and after all S blocks is the whole sum.
  Only that addition of extended reals commutes and associates is used: no finiteness.

  A summand is given on the N positions; it is extended by zero to every natural so that a position "s * B + r" can
  be written without carrying its bound.
-/
import Mathlib.Data.EReal.Basic
import proofs.«109855_j35691178230429_1_alg».proof.Proof.LibBlockSums

open scoped BigOperators

namespace Cert.LibDotBlocks

/-- A summand on the positions below N, extended by zero. -/
noncomputable def ext0 {N : ℕ} (g : Fin N → EReal) (i : ℕ) : EReal := if h : i < N then g ⟨i, h⟩ else 0

theorem ext0_of_lt {N : ℕ} (g : Fin N → EReal) {i : ℕ} (h : i < N) : ext0 g i = g ⟨i, h⟩ := dif_pos h

theorem ext0_val {N : ℕ} (g : Fin N → EReal) (k : Fin N) : ext0 g k.val = g k := ext0_of_lt g k.isLt

/-- The sum over the first s blocks of B positions. -/
noncomputable def partialSum {N : ℕ} (B : ℕ) (g : Fin N → EReal) (s : ℕ) : EReal := ∑ r : Fin (s * B), ext0 g r.val

/-- No block yet: zero. -/
theorem partialSum_zero {N : ℕ} (B : ℕ) (g : Fin N → EReal) : partialSum B g 0 = 0 :=
  Cert.LibBlockSums.sum_blocks_zero B (ext0 g)

/-- One more block: the sum so far plus the sum over block s. -/
theorem partialSum_succ {N : ℕ} (B : ℕ) (g : Fin N → EReal) (s : ℕ) :
    partialSum B g (s + 1) = partialSum B g s + ∑ r : Fin B, ext0 g (s * B + r.val) :=
  Cert.LibBlockSums.sum_blocks_succ B s (ext0 g)

/-- All S blocks: the whole sum. -/
theorem partialSum_all {N : ℕ} (B : ℕ) (g : Fin N → EReal) (s : ℕ) (h : s * B = N) :
    partialSum B g s = ∑ k : Fin N, g k := by
  unfold partialSum
  rw [Cert.LibBlockSums.sum_cast h (ext0 g)]
  exact Finset.sum_congr rfl fun k _ => ext0_val g k

end Cert.LibDotBlocks
-- ==== Proof.Invariant.lean ====
/-
  The accumulator, point by point, over the extended reals.

  Write X for the 16384 × 4096 left array, W for the 4096 × 4096 right array and B for the 1 × 4096 bias row, as the
  region finds them.  For the output entry in row r and column o, the summand at contracted position i is
  X[r, i] · W[i, o].  After the point t, whose contraction block is k = t % 8, the accumulator's entry (p, q) holds the
  sum of those summands over the first k + 1 blocks of 512 positions, for the row r = (t / 32) * 2048 + p and the
  column o = ((t / 8) % 4) * 1024 + q of the point's output block:
  * at k = 0 the accumulator is reset to zero and the first block's sum is added;
  * at 0 < k the point before belongs to the same output block (same t / 32 and (t / 8) % 4, contraction block
    k - 1), and this point adds block k's sum.
  At k = 7 all eight blocks are in, the whole sum over the 4096 positions, and the output block's entry is that sum
  plus B[0, o].
-/
import proofs.«109855_j35691178230429_1_alg».proof.Proof.Pieces
import proofs.«109855_j35691178230429_1_alg».proof.Proof.Payload
import proofs.«109855_j35691178230429_1_alg».proof.Proof.Blocks
import proofs.«109855_j35691178230429_1_alg».proof.Proof.LibDotBlocks

set_option maxRecDepth 16384

noncomputable section

open scoped BigOperators
open Idealize.ShloMosaic Idealize.ShloMosaic.TcCoe Idealize.SL.Sem Idealize.ShloMosaic.ValueIdx
open Idealize.ShloMosaic.Pipeline (Dat)
open Cert.LibDotBlocks

namespace Cert.KernelIdeal.Acc

open Cert.KernelIdeal Cert.KernelIdeal.Gen

variable (m : (ℓ : Loc nD τ sig) → Buf (Elt Ideal) ℓ)

/-- The summand of the output entry (r, o) at contracted position i. -/
def term (X : Vec Ideal S16384x4096 .f32) (W : Vec Ideal S4096x4096 .bf16) (r : Fin 16384) (o : Fin 4096) :
    Fin 4096 → EReal := fun i => X (ix2 r i) * W (ix2 i o)

/-- The row of the 16384 × 4096 output that entry p of point t's block sits in, -/
abbrev rowOf (t : Fin cfg0.N) (p : Fin 2048) : Fin 16384 :=
  ⟨t.val / 32 * 2048 + p.val, by have := point_lt t; have := p.isLt; omega⟩

/-- and the column that entry q sits in. -/
abbrev colOf (t : Fin cfg0.N) (q : Fin 1024) : Fin 4096 :=
  ⟨t.val / 8 % 4 * 1024 + q.val, by have := q.isLt; omega⟩

/-- The product of the point's two blocks at (p, q) is the sum of the summands over the point's contraction block. -/
theorem block_sum (c : Dev nD) (t : Fin cfg0.N) (p : Fin 2048) (q : Fin 1024) :
    ∑ k : Fin 512, xblk m c t (ix2 p k) * wblk m c t (ix2 k q)
      = ∑ k : Fin 512, ext0 (term (xarr m c) (warr m c) (rowOf t p) (colOf t q)) (t.val % 8 * 512 + k.val) := by
  refine Finset.sum_congr rfl fun k _ => ?_
  have hk : t.val % 8 * 512 + k.val < 4096 := by have := k.isLt; omega
  rw [ext0_of_lt _ hk]
  show _ = xarr m c (ix2 (rowOf t p) ⟨_, hk⟩) * warr m c (ix2 ⟨_, hk⟩ (colOf t q))
  rw [xblk_apply m c t p k (rowOf t p) ⟨_, hk⟩ rfl rfl, wblk_apply m c t k q ⟨_, hk⟩ (colOf t q) rfl rfl]

/-- One more block: if the accumulator held the sum over the first n % 8 + 1 blocks after point n, and point n + 1
    continues the same output block, the update at point n + 1 holds the sum over the first (n + 1) % 8 + 1 blocks. -/
theorem acc_step (c : Dev nD) (n : ℕ) (hn : n + 1 < cfg0.N) (h0 : ¬(n + 1) % 8 = 0) (p : Fin 2048) (q : Fin 1024)
    (prev : Vec Ideal S2048x1024 .f32)
    (ih : prev (ix2 p q)
      = partialSum 512 (term (xarr m c) (warr m c) (rowOf ⟨n, Nat.lt_of_succ_lt hn⟩ p) (colOf ⟨n, Nat.lt_of_succ_lt hn⟩ q)) (n % 8 + 1)) :
    k0_pay2 (xblk m c ⟨n + 1, hn⟩) prev (wblk m c ⟨n + 1, hn⟩) (ix2 p q)
      = partialSum 512 (term (xarr m c) (warr m c) (rowOf ⟨n + 1, hn⟩ p) (colOf ⟨n + 1, hn⟩ q)) ((n + 1) % 8 + 1) := by
  have hN : n + 1 < 256 := lt_of_lt_of_eq hn (show cfg0.N = 256 from N_0)
  refine (pay2_apply (xblk m c ⟨n + 1, hn⟩) prev (wblk m c ⟨n + 1, hn⟩) p q).trans ?_
  rw [block_sum m c ⟨n + 1, hn⟩ p q, partialSum_succ, ih]
  have hr : rowOf ⟨n, Nat.lt_of_succ_lt hn⟩ p = rowOf ⟨n + 1, hn⟩ p :=
    Fin.ext (by show n / 32 * 2048 + p.val = (n + 1) / 32 * 2048 + p.val; omega)
  have hc : colOf ⟨n, Nat.lt_of_succ_lt hn⟩ q = colOf ⟨n + 1, hn⟩ q :=
    Fin.ext (by show n / 8 % 4 * 1024 + q.val = (n + 1) / 8 % 4 * 1024 + q.val; omega)
  have hs : n % 8 + 1 = (n + 1) % 8 := by omega
  rw [hr, hc, hs]

/-- What the accumulator holds after point n: the sum over the first n % 8 + 1 contraction blocks. -/
theorem acc_eq (c : Dev nD) : ∀ (n : ℕ) (hn : n < cfg0.N) (p : Fin 2048) (q : Fin 1024),
    (outsAt0 m c n hn).2 (ix2 p q)
      = partialSum 512 (term (xarr m c) (warr m c) (rowOf ⟨n, hn⟩ p) (colOf ⟨n, hn⟩ q)) (n % 8 + 1) := by
  intro n
  induction n with
  | zero =>
    intro hn p q
    rw [outsAt0_A m c ⟨0, hn⟩ rfl (show ¬(0 % 8 = 7) by decide)]
    dsimp only
    refine (congrFun (scratch_A (F := Ideal) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) _ _ (xblk m c ⟨0, hn⟩) (wblk m c ⟨0, hn⟩) (bblk m c ⟨0, hn⟩)) (ix2 p q)).trans ?_
    refine (pay2_apply (xblk m c ⟨0, hn⟩) (k0_pay1 (F := Ideal)) (wblk m c ⟨0, hn⟩) p q).trans ?_
    rw [pay1_apply, zero_add, block_sum m c ⟨0, hn⟩ p q, partialSum_succ, partialSum_zero, zero_add]
  | succ n ih =>
    intro hn p q
    have hN : n + 1 < 256 := lt_of_lt_of_eq hn (show cfg0.N = 256 from N_0)
    by_cases h0 : (n + 1) % 8 = 0
    · have h1 : ¬(n + 1) % 8 = 7 := by omega
      rw [outsAt0_A m c ⟨n + 1, hn⟩ h0 h1]
      dsimp only
      refine (congrFun (scratch_A (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) _ _ (xblk m c ⟨n + 1, hn⟩) (wblk m c ⟨n + 1, hn⟩) (bblk m c ⟨n + 1, hn⟩)) (ix2 p q)).trans ?_
      refine (pay2_apply (xblk m c ⟨n + 1, hn⟩) (k0_pay1 (F := Ideal)) (wblk m c ⟨n + 1, hn⟩) p q).trans ?_
      rw [pay1_apply, zero_add, block_sum m c ⟨n + 1, hn⟩ p q, partialSum_succ]
      show _ = partialSum 512 _ ((n + 1) % 8) + ∑ r : Fin 512, ext0 _ ((n + 1) % 8 * 512 + r.val)
      rw [h0, partialSum_zero, zero_add]
    · by_cases h1 : (n + 1) % 8 = 7
      · rw [outsAt0_C m c ⟨n + 1, hn⟩ h0 h1]
        dsimp only
        exact (congrFun (scratch_C (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) _ _ (xblk m c ⟨n + 1, hn⟩) (wblk m c ⟨n + 1, hn⟩) (bblk m c ⟨n + 1, hn⟩) (outsAt0 m c n (Nat.lt_of_succ_lt hn)).2) (ix2 p q)).trans
          (acc_step m c n hn h0 p q _ (ih (Nat.lt_of_succ_lt hn) p q))
      · rw [outsAt0_B m c ⟨n + 1, hn⟩ h0 h1]
        dsimp only
        exact (congrFun (scratch_B (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) _ _ (xblk m c ⟨n + 1, hn⟩) (wblk m c ⟨n + 1, hn⟩) (bblk m c ⟨n + 1, hn⟩) (outsAt0 m c n (Nat.lt_of_succ_lt hn)).2) (ix2 p q)).trans
          (acc_step m c n hn h0 p q _ (ih (Nat.lt_of_succ_lt hn) p q))

/-- At a point whose contraction block is the last, the output block's entry (p, q) is the whole sum over the 4096
    positions plus the bias entry of its column. -/
theorem out_eq (c : Dev nD) (t : Fin cfg0.N) (h1 : t.val % 8 = 7) (p : Fin 2048) (q : Fin 1024) :
    (outsAt0 m c t.val t.isLt).1 (ix2 p q)
      = (∑ i : Fin 4096, term (xarr m c) (warr m c) (rowOf t p) (colOf t q) i) + barr m c (ix2 (0 : Fin 1) (colOf t q)) := by
  obtain ⟨n, hn⟩ := t
  cases n with
  | zero => exact absurd h1 (show ¬(0 % 8 = 7) by decide)
  | succ n =>
    have h0 : ¬(n + 1) % 8 = 0 := by have : (n + 1) % 8 = 7 := h1; omega
    rw [outsAt0_C m c ⟨n + 1, hn⟩ h0 h1]
    dsimp only
    refine (congrFun (out_C (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) _ _ (xblk m c ⟨n + 1, hn⟩) (wblk m c ⟨n + 1, hn⟩) (bblk m c ⟨n + 1, hn⟩) (outsAt0 m c n (Nat.lt_of_succ_lt hn)).2) (ix2 p q)).trans ?_
    refine (pay3_apply (k0_pay2 (xblk m c ⟨n + 1, hn⟩) (outsAt0 m c n (Nat.lt_of_succ_lt hn)).2 (wblk m c ⟨n + 1, hn⟩)) (bblk m c ⟨n + 1, hn⟩) p q).trans ?_
    rw [acc_step m c n hn h0 p q _ (acc_eq m c n (Nat.lt_of_succ_lt hn) p q), bblk_apply m c ⟨n + 1, hn⟩ q (colOf ⟨n + 1, hn⟩ q) rfl]
    have h7 : (n + 1) % 8 = 7 := h1
    rw [h7, partialSum_all 512 _ (7 + 1) rfl]

end Cert.KernelIdeal.Acc

end
-- ==== Proof.Region.lean ====
/-
  The output array after the region.

  The output's 2048 × 1024 block of a point is written back only at the points whose contraction block is the last
  (t % 8 = 7), and then it holds, at (p, q), the whole dot product of row r of X with column o of W plus B[0, o], for
  the entry (r, o) of the 16384 × 4096 array the block's (p, q) sits at.  The 8 × 4 output blocks tile the array: entry
  (r, o) is in the block written at the point (r / 2048) * 32 + (o / 1024) * 8 + 7.  So after the region the array
  holds the product plus the bias, entry by entry.
-/
import proofs.«109855_j35691178230429_1_alg».proof.Proof.Invariant

set_option maxRecDepth 16384

noncomputable section

open scoped BigOperators
open Idealize.ShloMosaic Idealize.ShloMosaic.TcCoe Idealize.SL.Sem Idealize.ShloMosaic.ValueIdx
open Idealize.ShloMosaic.Pipeline (Dat)
open Cert.LibDotBlocks

namespace Cert.KernelIdeal.Acc

open Cert.KernelIdeal Cert.KernelIdeal.Gen

variable (m : (ℓ : Loc nD τ sig) → Buf (Elt Ideal) ℓ)

/-- X · W + B over the extended reals: entry (r, o) is the sum over i of X[r, i] · W[i, o], plus B[0, o]. -/
def out2 (X : Vec Ideal S16384x4096 .f32) (W : Vec Ideal S4096x4096 .bf16) (B : Vec Ideal S1x4096 .f32) :
    Vec Ideal S16384x4096 .f32 :=
  fun j => (∑ i : Fin 4096, term X W (j 0) (j 1) i) + B (ix2 (0 : Fin 1) (j 1))

/-- What a writing point writes back is its block of X · W + B. -/
theorem flushed_eq (c : Dev nD) (t : Fin cfg0.N) (hf : (cfg0.win 3).flush t = true) :
    (dats m 0 c).flushed 3 t
      = ((cfg0.win 3).blk t).view.read (Elt Ideal) (out2 (xarr m c) (warr m c) (barr m c)) := by
  have h7 : t.val % 8 = 7 := (flush0_3 t).mp hf
  show (cfg0.win 3).cut (grid0.coords t) ((dats m 0 c).after 3 t) = _
  rw [after0_3]
  funext j
  obtain ⟨p, q, rfl⟩ : ∃ (p : Fin 2048) (q : Fin 1024), j = ix2 p q := ⟨j 0, j 1, eq_ix2 j⟩
  show (outsAt0 m c t.val t.isLt).1 (ix2 p q)
    = out2 (xarr m c) (warr m c) (barr m c) (((cfg0.win 3).blk t).view.emb (ix2 p q))
  rw [out_eq m c t h7 p q, oblk_emb t p q (rowOf t p) (colOf t q) rfl rfl]
  rfl

/-- An entry of the array is in point t's output block iff each coordinate is in the block's range. -/
theorem mem_oblk (t : Fin cfg0.N) (i : S16384x4096.Idx) :
    i ∈ ((cfg0.win 3).blk t).view.set ↔ ∀ a : Fin 2, win0_3.index t a * S2048x1024.size a ≤ (i a).val
      ∧ (i a).val < win0_3.index t a * S2048x1024.size a + S2048x1024.size a := by
  show i ∈ ((View.whole main_v12).slice (win0_3.rect t)).set ↔ _
  rw [View.set_slice_whole, Rect.mem_set_unit]
  exact Iff.rfl

/-- Every entry is in the block of a writing point. -/
theorem covered (i : S16384x4096.Idx) :
    ∃ t : Fin cfg0.N, (cfg0.win 3).flush t = true ∧ i ∈ ((cfg0.win 3).blk t).view.set := by
  have h0 : (i 0).val < 16384 := (i 0).isLt
  have h1 : (i 1).val < 4096 := (i 1).isLt
  have hN : cfg0.N = 256 := N_0
  have hlt : (i 0).val / 2048 * 32 + (i 1).val / 1024 * 8 + 7 < cfg0.N := by rw [hN]; omega
  refine ⟨⟨_, hlt⟩, (flush0_3 _).mpr (by show ((i 0).val / 2048 * 32 + (i 1).val / 1024 * 8 + 7) % 8 = 7; omega), ?_⟩
  rw [mem_oblk]
  obtain ⟨-, -, -, -, -, -, e0, e1⟩ := idx_facts ⟨_, hlt⟩
  have e0' : win0_3.index ⟨_, hlt⟩ (0 : Fin 2) = ((i 0).val / 2048 * 32 + (i 1).val / 1024 * 8 + 7) / 32 := e0
  have e1' : win0_3.index ⟨_, hlt⟩ (1 : Fin 2) = ((i 0).val / 2048 * 32 + (i 1).val / 1024 * 8 + 7) / 8 % 4 := e1
  intro a
  match a with
  | ⟨0, _⟩ =>
    show win0_3.index ⟨_, hlt⟩ (0 : Fin 2) * 2048 ≤ (i 0).val ∧ (i 0).val < win0_3.index ⟨_, hlt⟩ (0 : Fin 2) * 2048 + 2048
    rw [e0']; omega
  | ⟨1, _⟩ =>
    show win0_3.index ⟨_, hlt⟩ (1 : Fin 2) * 1024 ≤ (i 1).val ∧ (i 1).val < win0_3.index ⟨_, hlt⟩ (1 : Fin 2) * 1024 + 1024
    rw [e1']; omega

/-- After the region the output array holds X · W + B. -/
theorem region_out (c : Dev nD) :
    (dats m 0 c).arrAt 3 cfg0.N = out2 (xarr m c) (warr m c) (barr m c) :=
  (dats m 0 c).arrAt_eq_of_cover 3 (out2 (xarr m c) (warr m c) (barr m c)) (flushed_eq m c) covered

end Cert.KernelIdeal.Acc

end
-- ==== Proof.HostGlue.lean ====
/-
  The host operations around the region.

  Before the region the host lays out its three operands: the input viewed as a 16384 × 4096 matrix (a row-major
  reshape), the binarized weights transposed and changed to the narrow float format, and the bias viewed as a 1 × 4096
  row.  After it the 16384 × 4096 result is viewed as 8 × 2048 × 4096.  The binarized weights — each entry's sign times
  its row's mean absolute value — are kept as ONE term, never opened: the reference computes the very same term.
  Generic in the float instance.
-/
import proofs.«109855_j35691178230429_1_alg».proof.Proof.Blocks
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen

variable {F : FTy → Type} [FloatOps F]
variable (m : (ℓ : Loc nD τ sig) → Buf (Elt F) ℓ)

/-- The binarized weights: sign(w) scaled by the row's sum of absolute values (from zero) divided by 4096. -/
def weights (w : (⟨S4096x4096, .f32⟩ : BufTy).Contents (Elt F)) : (⟨S4096x4096, .f32⟩ : BufTy).Contents (Elt F) :=
  mulf (broadcastInDim S4096x4096 ![0, 1] bcast_S4096x1_S4096x4096_0_1
    (Host.divf (broadcastInDim S4096x1 ![0] bcast_S4096_S4096x1_0
        (Host.reduceAdd (Host.absf w) (constant S_ .f32 0x00000000#32) reducesTo_S4096x4096_S4096_d1 h_S_))
      (broadcastInDim S4096x1 ![] bcast_S_S4096x1 (constant S_ .f32 0x45800000#32)))) (Host.sign w)

/-- The left operand is the input reshaped. -/
theorem xarr_eq (c : Dev nD) :
    xarr m c = shapeCast S16384x4096 (m ((c : Thread nD τ).loc main_arg0)) shapeCasts_S8x2048x4096_S16384x4096 := by
  show StableHlo.after hostOps0 (fun b => m (c, b)) (Proc.devRef .tc main_v0) = _
  after_results
  rfl

/-- The right operand is the binarized weights, transposed, in the narrow float format. -/
theorem warr_eq (c : Dev nD) :
    warr m c = truncf .bf16 (transpose S4096x4096 [1, 0] (weights (m ((c : Thread nD τ).loc main_arg1)))
      transposes_S4096x4096_S4096x4096_1_0) bitsLt_bf16_f32 := by
  show StableHlo.after hostOps0 (fun b => m (c, b)) (Proc.devRef .tc main_v10) = _
  after_results
  rfl

/-- The bias operand is the bias reshaped to one row. -/
theorem barr_eq (c : Dev nD) :
    barr m c = shapeCast S1x4096 (m ((c : Thread nD τ).loc main_arg2)) shapeCasts_S4096_S1x4096 := by
  show StableHlo.after hostOps0 (fun b => m (c, b)) (Proc.devRef .tc main_v11) = _
  after_results
  rfl

/-- The program's result is the region's output array reshaped. -/
theorem tail_eq (c : Dev nD) :
    Pipeline.afterTail₀ cfgs (dats m) 0 (V0 m) [hostOps1] c main_v13
      = shapeCast S8x2048x4096 ((dats m 0 c).arrAt 3 cfg0.N) shapeCasts_S16384x4096_S8x2048x4096 := by
  unfold Pipeline.afterTail₀
  show StableHlo.after hostOps1 _ (Proc.devRef .tc main_v13) = _
  after_results
  exact congrArg (fun a => shapeCast S8x2048x4096 a shapeCasts_S16384x4096_S8x2048x4096)
    (Pipeline.withArrays_arr spec0 launch0.win.arr_inj c (V0 m c) (fun w => (dats m 0 c).arrAt w cfg0.N) 3)

end Cert.KernelIdeal.Acc

end
-- ==== Proof.KernelRun.lean ====
/-
  The idealized kernel's run, read: its result array ends at the reshaped X · W + B of the operands the host lays out,
  and the three arguments end as launched.
-/
import proofs.«109855_j35691178230429_1_alg».proof.Proof.Region
import proofs.«109855_j35691178230429_1_alg».proof.Proof.HostGlue

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen

/-- The kernel program's value as a function of its three arguments: the input reshaped to a matrix, times the
    transposed binarized weights, plus the bias row, reshaped back. -/
def value (x : (⟨S8x2048x4096, .f32⟩ : BufTy).Contents (Elt Ideal)) (w : (⟨S4096x4096, .f32⟩ : BufTy).Contents (Elt Ideal))
    (b : (⟨S4096, .f32⟩ : BufTy).Contents (Elt Ideal)) : (⟨S8x2048x4096, .f32⟩ : BufTy).Contents (Elt Ideal) :=
  shapeCast S8x2048x4096
    (out2 (shapeCast S16384x4096 x shapeCasts_S8x2048x4096_S16384x4096)
      (truncf .bf16 (transpose S4096x4096 [1, 0] (weights w) transposes_S4096x4096_S4096x4096_1_0) bitsLt_bf16_f32)
      (shapeCast S1x4096 b shapeCasts_S4096_S1x4096))
    shapeCasts_S16384x4096_S8x2048x4096

variable (m : (ℓ : Loc nD τ sig) → Buf (Elt Ideal) ℓ) (ρ : Dev nD → PrngReg)

/-- The program's result buffer after the run is that value of the arguments' launch contents. -/
theorem result_eq (c : Dev nD) :
    Pipeline.afterTail₀ cfgs (dats m) 0 (V0 m) [hostOps1] c main_v13
      = value (m ((c : Thread nD τ).loc main_arg0)) (m ((c : Thread nD τ).loc main_arg1)) (m ((c : Thread nD τ).loc main_arg2)) := by
  rw [tail_eq m c, region_out m c, xarr_eq m c, warr_eq m c, barr_eq m c]
  rfl

/-- Every weakly fair execution terminates with the result at that value and the arguments unchanged. -/
theorem run : θ_run defs (onTc (τ := τ) (main (F := Ideal))) ⟨m, fun _ => 0, ρ⟩ fun r => ∀ c : Dev nD,
      r.2.mem ((c.tc : Thread nD τ).loc main_v13)
        = value (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v13 (Pipeline.mem_restRefs_of main_v13 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Acc

end
-- ==== Proof.LibLayoutRead.lean ====
/-
  A row-major reshape read at an index: the reshaped array at an index holds the operand's entry at the index with
  the same row-major position.  Spelled out for the four re-layouts between one, two and three axes that a flat
  per-edge array, a four-per-edge array and a per-core lane row go through: the position of (i, j, k) in an
  [a, b, c] array is i * (b * c) + j * c + k, the position of (e, p) in an [n, q] array is e * q + p, and a unit
  middle axis contributes nothing.  Generic in the element type, in the extents and in the proof of the shape relation.
-/
import Idealize.ShloMosaic.Lib.ValueIdx
import Idealize.ShloMosaic.Lib.Pipeline.Value

namespace Cert.LibLayoutRead

open Idealize.ShloMosaic Idealize.ShloMosaic.ValueIdx

/-! ## Element counts and positions -/

/-- A one-axis array of extent n has n entries. -/
theorem numel_one (n : Nat) : (⟨1, ![n]⟩ : Shape).numel = n := by
  simp [Shape.numel]

/-- An [n, q] array has n * q entries. -/
theorem numel_two (n q : Nat) : (⟨2, ![n, q]⟩ : Shape).numel = n * q := by
  simp [Shape.numel, Fin.prod_univ_succ]

/-- An [a, b, c] array has a * b * c entries. -/
theorem numel_three (a b c : Nat) : (⟨3, ![a, b, c]⟩ : Shape).numel = a * b * c := by
  simp [Shape.numel, Fin.prod_univ_succ, Nat.mul_assoc]

/-- The position of (i, k) in an [a, q] array is below a * q. -/
theorem pos2_lt {a q : Nat} (i : Fin a) (k : Fin q) : i.val * q + k.val < a * q :=
  calc i.val * q + k.val < i.val * q + q := Nat.add_lt_add_left k.isLt _
    _ = (i.val + 1) * q := (Nat.succ_mul _ _).symm
    _ ≤ a * q := Nat.mul_le_mul_right _ i.isLt

/-- The position of (i, j, k) in an [a, b, c] array is below a * b * c. -/
theorem pos3_lt {a b c : Nat} (i : Fin a) (j : Fin b) (k : Fin c) :
    i.val * (b * c) + j.val * c + k.val < a * b * c := by
  have h1 : j.val * c + k.val < b * c := pos2_lt j k
  calc i.val * (b * c) + j.val * c + k.val = i.val * (b * c) + (j.val * c + k.val) := Nat.add_assoc _ _ _
    _ < i.val * (b * c) + b * c := Nat.add_lt_add_left h1 _
    _ = (i.val + 1) * (b * c) := (Nat.succ_mul _ _).symm
    _ ≤ a * (b * c) := Nat.mul_le_mul_right _ i.isLt
    _ = a * b * c := (Nat.mul_assoc _ _ _).symm

/-- The two spellings of the position of (i, j, k) agree. -/
theorem pos3_eq (b c i j k : Nat) : i * (b * c) + j * c + k = (i * b + j) * c + k := by
  rw [Nat.add_mul, Nat.mul_assoc]

/-- The bound of a flat position in an array with as many entries as an [a, b, c] one. -/
theorem pos3_lt_of_casts {n a b c : Nat} (h : (⟨1, ![n]⟩ : Shape).ShapeCasts ⟨3, ![a, b, c]⟩)
    (i : Fin a) (j : Fin b) (k : Fin c) : i.val * (b * c) + j.val * c + k.val < n := by
  have h' : a * b * c = n := by
    have := h
    unfold Shape.ShapeCasts at this
    rwa [numel_three, numel_one] at this
  exact h' ▸ pos3_lt i j k

/-- The bound of a flat position in an array with as many entries as an [a, q] one. -/
theorem pos2_lt_of_casts {n a q : Nat} (h : (⟨1, ![n]⟩ : Shape).ShapeCasts ⟨2, ![a, q]⟩)
    (i : Fin a) (k : Fin q) : i.val * q + k.val < n := by
  have h' : a * q = n := by
    have := h
    unfold Shape.ShapeCasts at this
    rwa [numel_two, numel_one] at this
  exact h' ▸ pos2_lt i k

/-- A position of an [a, b, c] array, in an [n, q] array with as many entries: its row is below n. -/
theorem row_lt_of_casts {n q a b c : Nat} (h : (⟨2, ![n, q]⟩ : Shape).ShapeCasts ⟨3, ![a, b, c]⟩)
    (i : Fin a) (j : Fin b) (k : Fin c) : (i.val * (b * c) + j.val * c + k.val) / q < n := by
  have h' : a * b * c = n * q := by
    have := h
    unfold Shape.ShapeCasts at this
    rwa [numel_three, numel_two] at this
  have hP : i.val * (b * c) + j.val * c + k.val < n * q := h' ▸ pos3_lt i j k
  exact Nat.div_lt_of_lt_mul (by rw [Nat.mul_comm q n]; exact hP)

/-- … and its column is below q. -/
theorem col_lt_of_casts {n q a b c : Nat} (h : (⟨2, ![n, q]⟩ : Shape).ShapeCasts ⟨3, ![a, b, c]⟩)
    (i : Fin a) (j : Fin b) (k : Fin c) : (i.val * (b * c) + j.val * c + k.val) % q < q := by
  have h' : a * b * c = n * q := by
    have := h
    unfold Shape.ShapeCasts at this
    rwa [numel_three, numel_two] at this
  have hP : i.val * (b * c) + j.val * c + k.val < n * q := h' ▸ pos3_lt i j k
  have hq : 0 < q := by
    rcases Nat.eq_zero_or_pos q with h0 | h0
    · rw [h0, Nat.mul_zero] at hP; exact absurd hP (Nat.not_lt_zero _)
    · exact h0
  exact Nat.mod_lt _ hq

/-! ## The four re-layouts read at an index -/

variable {α : Type}

/-- A flat array viewed as [a, b, c]: entry (i, j, k) is the flat entry at position i * (b * c) + j * c + k. -/
theorem cast_1_3 {n a b c : Nat} (x : (⟨1, ![n]⟩ : Shape).Idx → α)
    (h : (⟨1, ![n]⟩ : Shape).ShapeCasts ⟨3, ![a, b, c]⟩) (i : Fin a) (j : Fin b) (k : Fin c) :
    shapeCast ⟨3, ![a, b, c]⟩ x h (ix3 i j k)
      = x (ix1 ⟨i.val * (b * c) + j.val * c + k.val, pos3_lt_of_casts h i j k⟩) := by
  refine shapeCast_apply x h _ _ ?_
  rw [Shape.rowMajor_val_one, Shape.rowMajor_val_three]
  exact pos3_eq b c i.val j.val k.val

/-- An [n, q] array viewed as [a, b, c]: entry (i, j, k), at position P = i * (b * c) + j * c + k, is the entry in
    row P / q and column P % q. -/
theorem cast_2_3 {n q a b c : Nat} (x : (⟨2, ![n, q]⟩ : Shape).Idx → α)
    (h : (⟨2, ![n, q]⟩ : Shape).ShapeCasts ⟨3, ![a, b, c]⟩) (i : Fin a) (j : Fin b) (k : Fin c) :
    shapeCast ⟨3, ![a, b, c]⟩ x h (ix3 i j k)
      = x (ix2 ⟨(i.val * (b * c) + j.val * c + k.val) / q, row_lt_of_casts h i j k⟩
            ⟨(i.val * (b * c) + j.val * c + k.val) % q, col_lt_of_casts h i j k⟩) := by
  refine shapeCast_apply x h _ _ ?_
  rw [Shape.rowMajor_val_two, Shape.rowMajor_val_three]
  show (i.val * (b * c) + j.val * c + k.val) / q * q + (i.val * (b * c) + j.val * c + k.val) % q
    = (i.val * b + j.val) * c + k.val
  rw [Nat.div_add_mod']
  exact pos3_eq b c i.val j.val k.val

/-- An [a, 1, c] array viewed as [a, c]: entry (i, k) is entry (i, 0, k). -/
theorem cast_3_2 {a c : Nat} (x : (⟨3, ![a, 1, c]⟩ : Shape).Idx → α)
    (h : (⟨3, ![a, 1, c]⟩ : Shape).ShapeCasts ⟨2, ![a, c]⟩) (i : Fin a) (k : Fin c) :
    shapeCast ⟨2, ![a, c]⟩ x h (ix2 i k) = x (ix3 i 0 k) := by
  refine shapeCast_apply x h _ _ ?_
  rw [Shape.rowMajor_val_two, Shape.rowMajor_val_three]
  show (i.val * 1 + 0) * c + k.val = i.val * c + k.val
  rw [Nat.mul_one, Nat.add_zero]

/-- A flat array viewed as [a, q]: entry (i, k) is the flat entry at position i * q + k. -/
theorem cast_1_2 {n a q : Nat} (x : (⟨1, ![n]⟩ : Shape).Idx → α)
    (h : (⟨1, ![n]⟩ : Shape).ShapeCasts ⟨2, ![a, q]⟩) (i : Fin a) (k : Fin q) :
    shapeCast ⟨2, ![a, q]⟩ x h (ix2 i k) = x (ix1 ⟨i.val * q + k.val, pos2_lt_of_casts h i k⟩) := by
  refine shapeCast_apply x h _ _ ?_
  rw [Shape.rowMajor_val_one, Shape.rowMajor_val_two]
  rfl

end Cert.LibLayoutRead
-- ==== Proof.Bridge.lean ====
/-
  The two programs compute one function.

  Entry (b, s, o) of the kernel program's value is entry (b * 2048 + s, o) of X · W + B, where X[r, i] is the input at
  (r / 2048, r % 2048, i), W[i, o] is the binarized weights at (o, i) (transposed; the narrow float format is the
  identity on extended reals) and B[0, o] is the bias at o.  So it is the sum over i of input(b, s, i) times
  weights(o, i), plus bias(o): the reference's contraction of the input's last axis with the weights' second axis,
  plus the broadcast bias.  The binarized weights are one term on both sides and are never opened.
-/
import proofs.«109855_j35691178230429_1_alg».proof.Proof.KernelRun
import proofs.«109855_j35691178230429_1_alg».proof.Proof.LibLayoutRead
import proofs.«109855_j35691178230429_1_alg».proof.Proof.Gen.ReferenceIdeal.Read
import Idealize.ShloMosaic.Lib.ValueLayout

set_option maxRecDepth 16384

noncomputable section

open scoped BigOperators
open Idealize.ShloMosaic Idealize.ShloMosaic.TcCoe Idealize.SL.Sem Idealize.ShloMosaic.ValueIdx

namespace Cert.Bridge

open Cert.KernelIdeal.Acc

/-- The kernel's binarized weights are the reference's stage of the same name: one term. -/
theorem weights_eq (w : (⟨Cert.KernelIdeal.S4096x4096, .f32⟩ : BufTy).Contents (Elt Ideal)) :
    weights (F := Ideal) w = Cert.ReferenceIdeal.Read.val_main_v7 (F := Ideal) w := rfl

/-- The kernel program's value is the reference's result, entry by entry. -/
theorem value_eq (x : (⟨Cert.KernelIdeal.S8x2048x4096, .f32⟩ : BufTy).Contents (Elt Ideal))
    (w : (⟨Cert.KernelIdeal.S4096x4096, .f32⟩ : BufTy).Contents (Elt Ideal))
    (b : (⟨Cert.KernelIdeal.S4096, .f32⟩ : BufTy).Contents (Elt Ideal)) :
    Cert.ReferenceIdeal.Read.val_main_v11 (F := Ideal) x w b = value x w b := by
  funext j
  obtain ⟨bb, s, o, rfl⟩ : ∃ (bb : Fin 8) (s : Fin 2048) (o : Fin 4096), j = ix3 bb s o := ⟨j 0, j 1, j 2, eq_ix3 j⟩
  rw [Cert.ReferenceIdeal.Read.val_main_v11_apply, Cert.ReferenceIdeal.Read.val_main_v8_apply,
    Cert.ReferenceIdeal.Read.val_main_v10_apply, Cert.ReferenceIdeal.Read.val_main_v9_apply]
  unfold value
  rw [Cert.LibLayoutRead.cast_2_3]
  have hP : (bb.val * (2048 * 4096) + s.val * 4096 + o.val) / 4096 = bb.val * 2048 + s.val := by
    have := o.isLt; omega
  have hQ : (bb.val * (2048 * 4096) + s.val * 4096 + o.val) % 4096 = o.val := by
    have := o.isLt; omega
  unfold out2
  rw [Ideal.addf_def]
  refine congr (congrArg HAdd.hAdd (Finset.sum_congr rfl fun k _ => ?_)) ?_
  · unfold term
    refine congr (congrArg HMul.hMul ?_) ?_
    · refine (shapeCast_apply x _ _ _ ?_).symm
      rw [Shape.rowMajor_val_three, Shape.rowMajor_val_two]
      show (bb.val * 2048 + s.val) * 4096 + k.val
        = (bb.val * (2048 * 4096) + s.val * 4096 + o.val) / 4096 * 4096 + k.val
      rw [hP]
    · rw [truncf_apply, transpose_ix2_apply, weights_eq]
      refine congrArg _ (funext fun a => Fin.ext ?_)
      match a with
      | ⟨0, _⟩ => exact hQ.symm
      | ⟨1, _⟩ => rfl
  · refine (shapeCast_apply b _ _ _ ?_).symm
    rw [Shape.rowMajor_val_one, Shape.rowMajor_val_two]
    show o.val = 0 * 4096 + (bb.val * (2048 * 4096) + s.val * 4096 + o.val) % 4096
    rw [hQ, Nat.zero_mul, Nat.zero_add]

end Cert.Bridge

end
-- ==== Proof.lean ====
/-
  A dense layer with binarized weights: out = x2d · wᵀ + bias, where x2d is the input viewed as a 16384 × 4096 matrix
  and w is sign(weight) scaled by each row's mean absolute value.

  The kernel computes the product on an 8 × 4 × 8 grid of 2048 × 1024 output blocks, contracting 512 positions per
  point into an accumulator that is reset at the first contraction block and written out, plus the bias row, at the
  last; the reference contracts all 4096 positions at once.  Over the extended reals the two agree entry by entry:
  a sum over 4096 positions is the sum of its eight consecutive blocks of 512 (addition commutes and associates; the
  inputs' finiteness is not used), zero plus a value is the value, and the change to the narrow float format is the
  identity.  The binarized weights are the same term in both programs.

  * the three programs run and keep their arguments: the kernel's two frames as generated, the reference's from its run;
  * the idealization rewrote nothing, so its soundness statement is trivial;
  * the kernel's result (Proof/KernelRun.lean, from the accumulator's invariant in Proof/Invariant.lean and the cover in
    Proof/Region.lean) is the reference's (Proof/Bridge.lean).
-/
import proofs.«109855_j35691178230429_1_alg».proof.Defs
import proofs.«109855_j35691178230429_1_alg».proof.Proof.Gen.Kernel
import proofs.«109855_j35691178230429_1_alg».proof.Proof.Gen.Kernel.Skeleton
import proofs.«109855_j35691178230429_1_alg».proof.Proof.Gen.Kernel.Launch
import proofs.«109855_j35691178230429_1_alg».proof.Proof.Gen.Kernel.Points
import proofs.«109855_j35691178230429_1_alg».proof.Proof.Gen.Kernel.Frame
import proofs.«109855_j35691178230429_1_alg».proof.Proof.Gen.KernelIdeal
import proofs.«109855_j35691178230429_1_alg».proof.Proof.Gen.KernelIdeal.Skeleton
import proofs.«109855_j35691178230429_1_alg».proof.Proof.Gen.KernelIdeal.Launch
import proofs.«109855_j35691178230429_1_alg».proof.Proof.Gen.KernelIdeal.Points
import proofs.«109855_j35691178230429_1_alg».proof.Proof.Gen.KernelIdeal.Frame
import proofs.«109855_j35691178230429_1_alg».proof.Proof.Gen.ReferenceIdeal
import proofs.«109855_j35691178230429_1_alg».proof.Proof.Gen.ReferenceIdeal.Run
import proofs.«109855_j35691178230429_1_alg».proof.Proof.Gen.ReferenceIdeal.Read
import proofs.«109855_j35691178230429_1_alg».proof.Proof.Gen.Pre_finite_inputs
import proofs.«109855_j35691178230429_1_alg».proof.Proof.KernelRun
import proofs.«109855_j35691178230429_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end at the kernel program's value of the arguments: the kernel's by its run, the reference's because its
    composed term is that value, entry by entry. -/
theorem algebraic : Cert.algebraic_KernelIdeal_ReferenceIdeal := by
  intro m ρ m' ρ' _ hagree
  refine ⟨fun c => Cert.KernelIdeal.Acc.value (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Acc.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2, Cert.ReferenceIdeal.Read.val_main_v11_eq]
  exact Cert.Bridge.value_eq _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
